-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8x4096x4096 : Shape := ⟨3, ![8, 4096, 4096]⟩
abbrev S8 : Shape := ⟨1, ![8]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8x4096x4096 : S_.BroadcastsInDim S8x4096x4096 (![] : Fin 0 → Fin S8x4096x4096.rank)
  reducesTo_S8x4096x4096_S_d0_1_2 : S8x4096x4096.ReducesTo [0, 1, 2] S_

variable [Facts]

def fn {F : FTy → Type} [FloatOps F] (main_arg0 : FVec F S16384x4096 .f32) (main_arg1 : FVec F S8x4096x4096 .f32) (main_arg2 : IVec S8 32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S8x4096x4096 .f32 := Host.absf main_arg1
  let main_cst_0 : FVec F S_ .f32 := constant S_ .f32 0x7F800000#32
  let main_v5 : FVec F S8x4096x4096 .f32 := broadcastInDim S8x4096x4096 ![] bcast_S_S8x4096x4096 main_cst_0
  let main_v6 : IVec S8x4096x4096 1 := cmpf .olt main_v4 main_v5
  let main_c_1 : IVec S_ 1 := constantI S_ 1 1#1
  let main_v7 : IVec S_ 1 := (fun x v => Host.reduce IntOp.andi x v reducesTo_S8x4096x4096_S_d0_1_2 h_S_) main_v6 main_c_1
  let main_v8 : IVec S_ 1 := andi main_v3 main_v7
  main_v8
-- ==== Kernel.lean ====
abbrev S16384x4096 : Shape := ⟨2, ![16384, 4096]⟩
abbrev S8x4096x4096 : Shape := ⟨3, ![8, 4096, 4096]⟩
abbrev S8 : Shape := ⟨1, ![8]⟩
abbrev S8x2048x4096 : Shape := ⟨3, ![8, 2048, 4096]⟩
abbrev S1x1024x1024 : Shape := ⟨3, ![1, 1024, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S8x4096x4096, .f32⟩
  | .hbm, ⟨2, _⟩ => ⟨S8, .i32⟩
  | .hbm, ⟨3, _⟩ => ⟨S8x2048x4096, .f32⟩
  | .hbm, ⟨4, _⟩ => ⟨S8x2048x4096, .f32⟩
  | .hbm, ⟨5, _⟩ => ⟨S16384x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨4, ![8, 2, 4, 4], ![false, false, false, false]⟩

def k0_cond2 (i : grid0.Coords) : BitVec 1 :=
  let arg3 : BitVec 32 := BitVec.ofNat 32 (i 3).val
  let c3_i32 : BitVec 32 := 3#32
  let v15 : BitVec 1 := Scalar.cmpi .eq arg3 c3_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg3.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

class Facts₀ : Prop where
  shapeCasts_S16384x4096_S8x2048x4096 : S16384x4096.ShapeCasts S8x2048x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  shapeCasts_S1024x1024_S1x1024x1024 : S1024x1024.ShapeCasts S1x1024x1024
  shapeCasts_S8x2048x4096_S16384x4096 : S8x2048x4096.ShapeCasts S16384x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x4096.size a
  hwx0_0 : ∀ i : grid0.Coords, EltTy.bits .f32 = 32 ∨ (Rect.block (s := S8x2048x4096) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x4096x4096.size a
  hwx0_1 : ∀ i : grid0.Coords, EltTy.bits .f32 = 32 ∨ (Rect.block (s := S8x4096x4096) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x2048x4096.size a
  hwx0_2 : ∀ i : grid0.Coords, EltTy.bits .f32 = 32 ∨ (Rect.block (s := S8x2048x4096) S1x1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16384x4096 : Shape := ⟨2, ![16384, 4096]⟩
abbrev S8x4096x4096 : Shape := ⟨3, ![8, 4096, 4096]⟩
abbrev S8 : Shape := ⟨1, ![8]⟩
abbrev S8x2048x4096 : Shape := ⟨3, ![8, 2048, 4096]⟩

abbrev nBuf : Space → Nat
  | .hbm => 6
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8x4096x4096, .f32⟩
  | .hbm, ⟨2, _⟩ => ⟨S8, .i32⟩
  | .hbm, ⟨3, _⟩ => ⟨S8x2048x4096, .f32⟩
  | .hbm, ⟨4, _⟩ => ⟨S8x2048x4096, .f32⟩
  | .hbm, ⟨5, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  shapeCasts_S16384x4096_S8x2048x4096 : S16384x4096.ShapeCasts S8x2048x4096
  shapeCasts_S8x2048x4096_S16384x4096 : S8x2048x4096.ShapeCasts S16384x4096
  dot_S8x2048x4096_S8x4096x4096_S8x2048x4096_2_2_1_1_0_0_wf : DotDims.WF S8x2048x4096 S8x4096x4096 S8x2048x4096 [2] [2] [1] [1] [0] [0]

variable [Facts₀]

def dot_S8x2048x4096_S8x4096x4096_S8x2048x4096_2_2_1_1_0_0 : DotDims S8x2048x4096 S8x4096x4096 S8x2048x4096 where
  lhsContracting := [2]
  rhsContracting := [2]
  lhsNonContracting := [1]
  rhsNonContracting := [1]
  lhsBatch := [0]
  rhsBatch := [0]
  wf := dot_S8x2048x4096_S8x4096x4096_S8x2048x4096_2_2_1_1_0_0_wf

class Facts : Prop extends Facts₀ where

variable [Facts]
-- ==== Proof.Pieces.lean ====
/-
  What each control case of the body leaves behind, as values.
  At the first slab of a tile (the reset case) the accumulator is zeroed and then the slab's product is added: it ends
  at the accumulation of the two input blocks over the zero tile.  At a later slab the accumulator ends at the
  accumulation over what the previous grid point left.  At the last slab the output block additionally receives the
  accumulator's new contents, with the leading unit axis added.
-/
import proofs.«164082_j36507222016814_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Reset case: the accumulator ends at the first slab's product added to the zero tile. -/
theorem acc_reset (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (hc0 : cond0_0 i) (hc1 : ¬cond0_1 i)
    (x0 : Vec F S1x1024x1024 .f32) (x1 : Vec F S1x1024x1024 .f32) :
    sout0_A_0 c i arg4 harg4 arg5 harg5 arg6 harg6 arg7 harg7 hc0 hc1 x0 x1 = k0_pay2 x0 x1 (k0_pay1 (F := F)) := by
  unfold sout0_A_0
  rw [View.read_writes_eq_canon _ _ _ (scover0_A_0 c i arg4 harg4 arg5 harg5 arg6 harg6 arg7 harg7 hc0 hc1 x0 x1)]
  unfold kernelRun0_A
  dsimp only
  sl_unfold_words
  rw [View.canon_cons_unit_zero (S := S1024x1024) hz2]
  simp only [View.readAt_eq_ld, harg4.read_unread, harg5.read_unread, View.ld_unit_zero (S := S1x1024x1024) hz3,
    View.readCov_unit_zero (S := S1024x1024) _ hz2]

/-- A later slab: the accumulator ends at this slab's product added to what the point before left. -/
theorem acc_step (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : ¬cond0_1 i)
    (x0 : Vec F S1x1024x1024 .f32) (x1 : Vec F S1x1024x1024 .f32) (xs0 : Vec F S1024x1024 .f32) :
    sout0_B_0 c i arg4 harg4 arg5 harg5 arg6 harg6 arg7 harg7 hc0 hc1 x0 x1 xs0 = k0_pay2 x0 x1 xs0 := by
  unfold sout0_B_0
  rw [View.read_writes_eq_canon _ _ _ (scover0_B_0 c i arg4 harg4 arg5 harg5 arg6 harg6 arg7 harg7 hc0 hc1 x0 x1 xs0)]
  unfold kernelRun0_B
  dsimp only
  sl_unfold_words
  rw [View.canon_unit_zero (S := S1024x1024) hz2]
  simp only [View.readAt_eq_ld, harg4.read_unread, harg5.read_unread, harg7.read_unread,
    View.ld_unit_zero (S := S1x1024x1024) hz3, View.ld_unit_zero (S := S1024x1024) hz2]

/-- The last slab: the accumulator likewise, -/
theorem acc_last (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .f32) (x1 : Vec F S1x1024x1024 .f32) (xs0 : Vec F S1024x1024 .f32) :
    sout0_C_0 c i arg4 harg4 arg5 harg5 arg6 harg6 arg7 harg7 hc0 hc1 x0 x1 xs0 = k0_pay2 x0 x1 xs0 := by
  unfold sout0_C_0
  rw [View.read_writes_eq_canon _ _ _ (scover0_C_0 c i arg4 harg4 arg5 harg5 arg6 harg6 arg7 harg7 hc0 hc1 x0 x1 xs0)]
  unfold kernelRun0_C
  dsimp only
  sl_unfold_words
  rw [View.canon_unit_zero (S := S1024x1024) hz2]
  simp only [View.readAt_eq_ld, harg4.read_unread, harg5.read_unread, harg7.read_unread,
    View.ld_unit_zero (S := S1x1024x1024) hz3, View.ld_unit_zero (S := S1024x1024) hz2]

/-- and the output block receives the accumulator's new contents. -/
theorem out_last (c : Dev nD) (i : grid0.Coords) (arg4 : Memref sig .tc .vmem S1x1024x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1024x1024 .f32) (harg7 : arg7.IsWhole) (hc0 : ¬cond0_0 i) (hc1 : cond0_1 i)
    (x0 : Vec F S1x1024x1024 .f32) (x1 : Vec F S1x1024x1024 .f32) (xs0 : Vec F S1024x1024 .f32) :
    out0_C_2 c i arg4 harg4 arg5 harg5 arg6 harg6 arg7 harg7 hc0 hc1 x0 x1 xs0 = k0_pay3 (k0_pay2 x0 x1 xs0) := by
  unfold out0_C_2
  rw [View.read_writes_eq_canon _ _ _ (cover0_C_2 c i arg4 harg4 arg5 harg5 arg6 harg6 arg7 harg7 hc0 hc1 x0 x1 xs0)]
  unfold kernelRun0_C
  dsimp only
  sl_unfold_words
  rw [View.canon_unit_zero (S := S1x1024x1024) hz3]
  simp only [View.readCov_unit_zero (S := S1024x1024) _ hz2, View.readAt_eq_ld, harg4.read_unread, harg5.read_unread,
    harg7.read_unread, View.ld_unit_zero (S := S1x1024x1024) hz3, View.ld_unit_zero (S := S1024x1024) hz2]

end Cert.KernelIdeal.Pieces

end
-- ==== Proof.Body.lean ====
/-
  The body's three stored values, read at an index over the extended reals.
  The reset stores zero everywhere.  The accumulation stores, at row `p` and column `q` of the tile, what the
  accumulator held there plus the sum over the 1024 places `r` of the slab of (x-block at row `p`, place `r`) times
  (w-block at row `q`, place `r`): the matrix unit contracts the LAST axis of both blocks, the change of float format
  before it is the identity, and its own accumulator is zero.  The write-out stores the accumulator unchanged, with a
  leading axis of extent one added.
-/
import proofs.«164082_j36507222016814_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The tile's matrix product record, under a short name. -/
abbrev D := dot_S1024x1024_S1024x1024_S1024x1024_1_1_0_0_n_n

theorem lhs_0 (j : S1024x1024.Idx) (k : D.contr.Idx) : (D.lhsIdx j k 0).val = (j 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_1 (j : S1024x1024.Idx) (k : D.contr.Idx) : (D.lhsIdx j k 1).val = (k ⟨0, by decide⟩).val :=
  dot_S1024x1024_S1024x1024_S1024x1024_1_1_0_0_n_n.lhsIdx_val_of_single rfl j k
theorem rhs_0 (j : S1024x1024.Idx) (k : D.contr.Idx) : (D.rhsIdx j k 0).val = (j 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_1 (j : S1024x1024.Idx) (k : D.contr.Idx) : (D.rhsIdx j k 1).val = (k ⟨0, by decide⟩).val :=
  dot_S1024x1024_S1024x1024_S1024x1024_1_1_0_0_n_n.rhsIdx_val_of_single rfl j k

/-- The matrix unit on two tiles, into the zero accumulator: row `p` of the left against row `q` of the right. -/
theorem matmul_tile (a b : FVec Ideal S1024x1024 .bf16) (p q : Fin 1024) :
    matmul (F := Ideal) D none a b (constant S1024x1024 .f32 0x00000000#32) (ix2 p q)
      = ∑ r : Fin 1024, a (ix2 p r) * b (ix2 q r) := by
  simp only [matmul]
  rw [Ideal.matmul_constant_zero_apply, ← Equiv.sum_comp (contrEquiv1 D 1024 rfl rfl).symm]
  refine Finset.sum_congr rfl fun r _ => ?_
  have hk := contrEquiv1_symm_val D 1024 rfl rfl r
  have el : D.lhsIdx (ix2 p q) ((contrEquiv1 D 1024 rfl rfl).symm r) = ix2 p r := funext fun a => Fin.ext (by
    match a with
    | ⟨0, _⟩ => exact lhs_0 _ _
    | ⟨1, _⟩ => exact (lhs_1 _ _).trans hk)
  have er : D.rhsIdx (ix2 p q) ((contrEquiv1 D 1024 rfl rfl).symm r) = ix2 q r := funext fun a => Fin.ext (by
    match a with
    | ⟨0, _⟩ => exact rhs_0 _ _
    | ⟨1, _⟩ => exact (rhs_1 _ _).trans hk)
  rw [el, er]

/-- Dropping the leading unit axis of a block: entry `(p, r)` is entry `(0, p, r)`. -/
theorem drop_unit (v : Vec Ideal S1x1024x1024 .f32) (p r : Fin 1024) :
    shapeCast S1024x1024 v shapeCasts_S1x1024x1024_S1024x1024 (ix2 p r) = v (ix3 (0 : Fin 1) p r) := by
  refine shapeCast_apply v _ (ix2 p r) (ix3 (0 : Fin 1) p r) ?_
  rw [Shape.rowMajor_val_three, Shape.rowMajor_val_two]
  show (0 * 1024 + p.val) * 1024 + r.val = p.val * 1024 + r.val
  omega

/-- Adding it back: entry `(0, p, q)` is entry `(p, q)`. -/
theorem add_unit (v : Vec Ideal S1024x1024 .f32) (p q : Fin 1024) :
    shapeCast S1x1024x1024 v shapeCasts_S1024x1024_S1x1024x1024 (ix3 (0 : Fin 1) p q) = v (ix2 p q) := by
  refine shapeCast_apply v _ (ix3 (0 : Fin 1) p q) (ix2 p q) ?_
  rw [Shape.rowMajor_val_three, Shape.rowMajor_val_two]
  show p.val * 1024 + q.val = (0 * 1024 + p.val) * 1024 + q.val
  omega

/-- The reset's stored value is zero at every entry. -/
theorem reset_apply (j : S1024x1024.Idx) : k0_pay1 (F := Ideal) j = 0 := by
  unfold k0_pay1
  simp only [shapeCast_self]
  exact Ideal.ofBits_zero_f32

/-- The accumulation's stored value at `(p, q)`. -/
theorem accum_apply (x w : Vec Ideal S1x1024x1024 .f32) (acc : Vec Ideal S1024x1024 .f32) (p q : Fin 1024) :
    k0_pay2 (F := Ideal) x w acc (ix2 p q)
      = acc (ix2 p q) + ∑ r : Fin 1024, x (ix3 (0 : Fin 1) p r) * w (ix3 (0 : Fin 1) q r) := by
  unfold k0_pay2
  simp only [shapeCast_self]
  rw [addf_apply, matmul_tile]
  refine congrArg (acc (ix2 p q) + ·) (Finset.sum_congr rfl fun r _ => ?_)
  rw [truncf_apply, truncf_apply, drop_unit, drop_unit]

/-- The write-out's stored value at `(0, p, q)`. -/
theorem writeout_apply (acc : Vec Ideal S1024x1024 .f32) (p q : Fin 1024) :
    k0_pay3 (F := Ideal) acc (ix3 (0 : Fin 1) p q) = acc (ix2 p q) := by
  unfold k0_pay3
  exact add_unit acc p q

end Cert.KernelIdeal.Body

end
-- ==== Proof.SlabSum.lean ====
/-
  The contracted axis of length 4096 is cut into four slabs of 1024 positions.  A sum over the whole axis is the
  sum of the four slab sums, and the partial sums over the first slabs obey the recurrence an accumulator follows:
  start from the first slab, add one slab at a time, and after the fourth the whole axis has been summed.
  Everything here holds in any commutative additive monoid; no finiteness is involved.
-/
import Mathlib.Algebra.BigOperators.Fin
import Mathlib.Algebra.BigOperators.Group.Finset.Basic
import Mathlib.Logic.Equiv.Fin.Basic

namespace Cert.SlabSum

/-- Position `1024·k + r` of the contracted axis: place `r` inside slab `k`. -/
def dpos (k : Fin 4) (r : Fin 1024) : Fin 4096 := ⟨1024 * k.val + r.val, by omega⟩

@[simp] theorem dpos_val (k : Fin 4) (r : Fin 1024) : (dpos k r).val = 1024 * k.val + r.val := rfl

/-- Every position of the axis is a unique (slab, place) pair. -/
def dposEquiv : Fin 4 × Fin 1024 ≃ Fin 4096 where
  toFun p := dpos p.1 p.2
  invFun d := (⟨d.val / 1024, by omega⟩, ⟨d.val % 1024, Nat.mod_lt _ (by decide)⟩)
  left_inv p := by
    obtain ⟨k, r⟩ := p
    apply Prod.ext
    · apply Fin.ext; show (1024 * k.val + r.val) / 1024 = k.val; omega
    · apply Fin.ext; show (1024 * k.val + r.val) % 1024 = r.val; omega
  right_inv d := by
    apply Fin.ext; show 1024 * (d.val / 1024) + d.val % 1024 = d.val; omega

variable {M : Type*} [AddCommMonoid M]

/-- The sum of `f` over slab `k`. -/
def slab (f : Fin 4096 → M) (k : Fin 4) : M := ∑ r : Fin 1024, f (dpos k r)

/-- The sum of `f` over the slabs `0 … k`. -/
def upTo (f : Fin 4096 → M) (k : ℕ) : M := ∑ kk : Fin 4, if kk.val ≤ k then slab f kk else 0

/-- The whole axis is the four slabs. -/
theorem sum_eq_slabs (f : Fin 4096 → M) : ∑ d : Fin 4096, f d = ∑ k : Fin 4, slab f k := by
  unfold slab
  rw [← Finset.sum_product', Finset.univ_product_univ]
  exact (Fintype.sum_equiv dposEquiv _ _ (fun _ => rfl)).symm

theorem upTo_zero (f : Fin 4096 → M) : upTo f 0 = slab f 0 := by
  unfold upTo
  rw [Fin.sum_univ_four]
  simp

theorem upTo_succ (f : Fin 4096 → M) (k : ℕ) (h : k + 1 < 4) :
    upTo f (k + 1) = upTo f k + slab f ⟨k + 1, h⟩ := by
  unfold upTo
  rw [Fin.sum_univ_four, Fin.sum_univ_four]
  obtain rfl | rfl | rfl : k = 0 ∨ k = 1 ∨ k = 2 := by omega
  all_goals simp

theorem upTo_three (f : Fin 4096 → M) : upTo f 3 = ∑ d : Fin 4096, f d := by
  rw [sum_eq_slabs]
  unfold upTo
  exact Finset.sum_congr rfl fun kk _ => if_pos (by have := kk.isLt; omega)

end Cert.SlabSum
-- ==== Proof.Spec.lean ====
/-
  The specification.  For an activation array `X` of shape [8, 2048, 4096] (expert, token, feature) and a weight array
  `W` of shape [8, 4096, 4096] (expert, output feature, feature), the grouped product is
      gemm X W (e, t, f) = ∑ d, X (e, t, d) · W (e, f, d)
  over the extended reals: one ordinary matrix product per expert, with the weight's LAST axis contracted.

  The kernel reaches it tile by tile.  Grid point number `n` (of 256) works on tile `g = n / 4` — expert `g / 8`, token
  block `g / 4 % 2`, feature block `g % 4`, each block 1024 wide — and on slab `n % 4` of the contracted axis.  After
  point `n` the accumulator holds, at `(p, q)` of the tile, the sum of the products over the slabs `0 … n % 4`
  (`accAfter`); after the tile's fourth point that is the whole sum, the entry of `gemm X W` the tile covers there.
-/
import proofs.«164082_j36507222016814_1_alg».proof.Proof.SlabSum
import Idealize.ShloMosaic.Lib.ValueIdx
import Idealize.ShloMosaic.PureOps.Ideal

noncomputable section

namespace Cert.Spec

open Idealize.ShloMosaic Idealize.ShloMosaic.ValueIdx Cert.SlabSum

abbrev SX : Shape := ⟨3, ![8, 2048, 4096]⟩
abbrev SW : Shape := ⟨3, ![8, 4096, 4096]⟩
abbrev STile : Shape := ⟨2, ![1024, 1024]⟩

/-- The grouped product, entry by entry. -/
def gemm (X : SX.Idx → EReal) (W : SW.Idx → EReal) : SX.Idx → EReal :=
  fun i => ∑ d : Fin 4096, X (ix3 (i 0) (i 1) d) * W (ix3 (i 0) (i 2) d)

/-- Tile `g`'s expert. -/
def expertOf (g : ℕ) : Fin 8 := ⟨g / 8 % 8, Nat.mod_lt _ (by decide)⟩
/-- Token `p` of tile `g`'s token block, in the array. -/
def tokenOf (g : ℕ) (p : Fin 1024) : Fin 2048 := ⟨1024 * (g / 4 % 2) + p.val, by omega⟩
/-- Output feature `q` of tile `g`'s feature block, in the array. -/
def featOf (g : ℕ) (q : Fin 1024) : Fin 4096 := ⟨1024 * (g % 4) + q.val, by omega⟩

@[simp] theorem expertOf_val (g : ℕ) : (expertOf g).val = g / 8 % 8 := rfl
@[simp] theorem tokenOf_val (g : ℕ) (p : Fin 1024) : (tokenOf g p).val = 1024 * (g / 4 % 2) + p.val := rfl
@[simp] theorem featOf_val (g : ℕ) (q : Fin 1024) : (featOf g q).val = 1024 * (g % 4) + q.val := rfl

/-- The products summed for entry `(p, q)` of tile `g`, along the contracted axis. -/
def term (X : SX.Idx → EReal) (W : SW.Idx → EReal) (g : ℕ) (p q : Fin 1024) : Fin 4096 → EReal :=
  fun d => X (ix3 (expertOf g) (tokenOf g p) d) * W (ix3 (expertOf g) (featOf g q) d)

/-- The accumulator tile after grid point `n`. -/
def accAfter (X : SX.Idx → EReal) (W : SW.Idx → EReal) (n : ℕ) : STile.Idx → EReal :=
  fun y => upTo (term X W (n / 4) (y 0) (y 1)) (n % 4)

/-- At a tile's first point (slab `k = 0`): the first slab alone. -/
theorem accAfter_first (X : SX.Idx → EReal) (W : SW.Idx → EReal) (n : ℕ) (k : Fin 4) (hk : n % 4 = k.val)
    (h : k.val = 0) (p q : Fin 1024) :
    accAfter X W n (ix2 p q) = 0 + ∑ r : Fin 1024, term X W (n / 4) p q (dpos k r) := by
  obtain rfl : k = 0 := Fin.ext h
  unfold accAfter
  show upTo (term X W (n / 4) p q) (n % 4) = _
  rw [hk]
  show upTo (term X W (n / 4) p q) 0 = _
  rw [upTo_zero, zero_add]
  rfl

/-- At a later point of the tile (slab `k > 0`): what the point before left, plus this point's slab. -/
theorem accAfter_next (X : SX.Idx → EReal) (W : SW.Idx → EReal) (n : ℕ) (k : Fin 4) (hk : n % 4 = k.val)
    (h : ¬k.val = 0) (p q : Fin 1024) :
    accAfter X W n (ix2 p q)
      = accAfter X W (n - 1) (ix2 p q) + ∑ r : Fin 1024, term X W (n / 4) p q (dpos k r) := by
  unfold accAfter
  show upTo (term X W (n / 4) p q) (n % 4) = upTo (term X W ((n - 1) / 4) p q) ((n - 1) % 4) + _
  obtain ⟨k', hk'⟩ : ∃ k', k.val = k' + 1 := ⟨k.val - 1, by omega⟩
  have hlt : k' + 1 < 4 := by have := k.isLt; omega
  obtain rfl : k = ⟨k' + 1, hlt⟩ := Fin.ext hk'
  have hk0 : n % 4 = k' + 1 := hk
  have hg : (n - 1) / 4 = n / 4 := by omega
  have hk1 : (n - 1) % 4 = k' := by omega
  rw [hg, hk1, hk0, upTo_succ _ k' hlt]
  rfl

/-- At the tile's last point: the whole sum, the grouped product's entry. -/
theorem accAfter_last (X : SX.Idx → EReal) (W : SW.Idx → EReal) (n : ℕ) (h : n % 4 = 3) (p q : Fin 1024) :
    accAfter X W n (ix2 p q) = gemm X W (ix3 (expertOf (n / 4)) (tokenOf (n / 4) p) (featOf (n / 4) q)) := by
  unfold accAfter gemm
  show upTo (term X W (n / 4) p q) (n % 4) = _
  rw [h, upTo_three]
  rfl

end Cert.Spec

end
-- ==== Proof.Blocks.lean ====
/-
  Where the pipeline's blocks sit in the arrays.  Grid point number `t` has coordinates (expert, token block, feature
  block, slab) = (t / 32, t / 16 % 2, t / 4 % 4, t % 4).  The activation window's block at `t` is
  [expert, 1024·(token block) + p, 1024·slab + r], the weight window's is [expert, 1024·(feature block) + q, 1024·slab + r],
  and the output window's is [expert, 1024·(token block) + p, 1024·(feature block) + q].
-/
import proofs.«164082_j36507222016814_1_alg».proof.Proof.Gen.KernelIdeal.Frame
import proofs.«164082_j36507222016814_1_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.ValueIdx Cert.Spec Cert.SlabSum

variable {F : FTy → Type} [FloatOps F]
variable (m : (ℓ : Loc nD τ sig) → Buf (Elt F) ℓ)

/-- The three windows' block indices at every grid point, decided over the 256 points. -/
theorem idx_facts : ∀ t : Fin cfg0.N,
    win0_0.index t (0 : Fin 3) = t.val / 32 ∧ win0_0.index t (1 : Fin 3) = t.val / 16 % 2 ∧ win0_0.index t (2 : Fin 3) = t.val % 4
    ∧ win0_1.index t (0 : Fin 3) = t.val / 32 ∧ win0_1.index t (1 : Fin 3) = t.val / 4 % 4 ∧ win0_1.index t (2 : Fin 3) = t.val % 4
    ∧ win0_2.index t (0 : Fin 3) = t.val / 32 ∧ win0_2.index t (1 : Fin 3) = t.val / 16 % 2 ∧ win0_2.index t (2 : Fin 3) = t.val / 4 % 4 :=
  (by decide +kernel : ∀ t : Fin grid0.N, _)

/-- The slab a grid point works on. -/
def slabOf (t : Fin cfg0.N) : Fin 4 := ⟨t.val % 4, Nat.mod_lt _ (by decide)⟩

/-- The activation array and the weight array as the region finds them, and the two input blocks at a point,
    each under its literal type. -/
abbrev xarr (c : Dev nD) : SX.Idx → Elt F .f32 := V m c main_v0
abbrev warr (c : Dev nD) : SW.Idx → Elt F .f32 := V m c main_arg1
abbrev xblk (c : Dev nD) (t : Fin cfg0.N) : Vec F S1x1024x1024 .f32 := iblk m c 0 t
abbrev wblk (c : Dev nD) (t : Fin cfg0.N) : Vec F S1x1024x1024 .f32 := iblk m c 1 t

/-- The activation block at point `t`, entry `(0, p, r)`. -/
theorem xblk_apply (c : Dev nD) (t : Fin cfg0.N) (p r : Fin 1024) :
    xblk m c t (ix3 (0 : Fin 1) p r) = xarr m c (ix3 (expertOf (t.val / 4)) (tokenOf (t.val / 4) p) (dpos (slabOf t) r)) := by
  obtain ⟨e0, e1, e2, -⟩ := idx_facts t
  have hN : t.val < 256 := lt_of_lt_of_eq t.isLt (show cfg0.N = 256 from N_0)
  unfold xblk iblk
  rw [View.read_apply]
  show V m c main_v0 _ = V m c main_v0 _
  congr 1
  funext a
  apply Fin.ext
  match a with
  | ⟨0, _⟩ => show win0_0.index t (0 : Fin 3) * 1 + 1 * 0 = t.val / 4 / 8 % 8; rw [e0]; omega
  | ⟨1, _⟩ => show win0_0.index t (1 : Fin 3) * 1024 + 1 * p.val = 1024 * (t.val / 4 / 4 % 2) + p.val; rw [e1]; omega
  | ⟨2, _⟩ => show win0_0.index t (2 : Fin 3) * 1024 + 1 * r.val = 1024 * (t.val % 4) + r.val; rw [e2]; omega

/-- The weight block at point `t`, entry `(0, q, r)`. -/
theorem wblk_apply (c : Dev nD) (t : Fin cfg0.N) (q r : Fin 1024) :
    wblk m c t (ix3 (0 : Fin 1) q r) = warr m c (ix3 (expertOf (t.val / 4)) (featOf (t.val / 4) q) (dpos (slabOf t) r)) := by
  obtain ⟨-, -, -, e0, e1, e2, -⟩ := idx_facts t
  have hN : t.val < 256 := lt_of_lt_of_eq t.isLt (show cfg0.N = 256 from N_0)
  unfold wblk iblk
  rw [View.read_apply]
  show V m c main_arg1 _ = V m c main_arg1 _
  congr 1
  funext a
  apply Fin.ext
  match a with
  | ⟨0, _⟩ => show win0_1.index t (0 : Fin 3) * 1 + 1 * 0 = t.val / 4 / 8 % 8; rw [e0]; omega
  | ⟨1, _⟩ => show win0_1.index t (1 : Fin 3) * 1024 + 1 * q.val = 1024 * (t.val / 4 % 4) + q.val; rw [e1]; omega
  | ⟨2, _⟩ => show win0_1.index t (2 : Fin 3) * 1024 + 1 * r.val = 1024 * (t.val % 4) + r.val; rw [e2]; omega

end Cert.KernelIdeal.Blocks

end
-- ==== Proof.Scratch.lean ====
/-
  The accumulator across the grid.  What the scratch tile holds after each grid point obeys the body's recurrence —
  at a tile's first slab the accumulation over the zero tile, at a later slab the accumulation over what the point
  before left — and, read at an entry over the extended reals, that recurrence is the partial sum over the slabs done
  so far (`accAfter`): by induction on the point number.  At a tile's last slab the output block is the accumulator's
  new contents.
-/
import proofs.«164082_j36507222016814_1_alg».proof.Proof.Pieces
import proofs.«164082_j36507222016814_1_alg».proof.Proof.Body
import proofs.«164082_j36507222016814_1_alg».proof.Proof.Blocks

noncomputable section

namespace Cert.KernelIdeal.Scratch

open Cert.KernelIdeal Cert.KernelIdeal.Gen Idealize.ShloMosaic Idealize.ShloMosaic.TcCoe Idealize.SL.Sem
open Idealize.ShloMosaic.ValueIdx Cert.Spec Cert.SlabSum Cert.KernelIdeal.Blocks

section AnyInstance
variable {F : FTy → Type} [FloatOps F]
variable (m : (ℓ : Loc nD τ sig) → Buf (Elt F) ℓ)

/-- What the scratch holds after point `t`, under its literal type. -/
abbrev scr (c : Dev nD) (n : ℕ) (h : n < cfg0.N) : Vec F S1024x1024 .f32 := (outsAt0 m c n h).2

/-- A tile's first slab: the accumulation over the zero tile. -/
theorem scr_first (c : Dev nD) (t : Fin cfg0.N) (h0 : t.val % 4 = 0) :
    scr m c t.val t.isLt = k0_pay2 (xblk m c t) (wblk m c t) (k0_pay1 (F := F)) := by
  have h1 : ¬t.val % 4 = 3 := by omega
  unfold scr
  rw [outsAt0_A m c t h0 h1]
  dsimp only
  exact Pieces.acc_reset c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- A later slab: the accumulation over what the point before left. -/
theorem scr_next (c : Dev nD) (t : Fin cfg0.N) (h0 : ¬t.val % 4 = 0) :
    scr m c t.val t.isLt
      = k0_pay2 (xblk m c t) (wblk m c t) (scr m c (t.val - 1) (Nat.lt_of_le_of_lt (Nat.sub_le _ _) t.isLt)) := by
  unfold scr
  by_cases h1 : t.val % 4 = 3
  · rw [outsAt0_C m c t h0 h1]
    dsimp only
    exact Pieces.acc_last c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact Pieces.acc_step c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- A tile's last slab: the output block is the accumulator's new contents, a unit axis added in front. -/
theorem out_last (c : Dev nD) (t : Fin cfg0.N) (h1 : t.val % 4 = 3) :
    ((outsAt0 m c t.val t.isLt).1 : Vec F S1x1024x1024 .f32) = k0_pay3 (scr m c t.val t.isLt) := by
  have h0 : ¬t.val % 4 = 0 := by omega
  unfold scr
  rw [outsAt0_C m c t h0 h1]
  dsimp only
  rw [Pieces.acc_last c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2]
  exact Pieces.out_last c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t)
      (outsAt0 m c (t.val - 1) (Nat.lt_of_le_of_lt (Nat.sub_le _ _) t.isLt)).2

end AnyInstance

section AtIdeal
variable (m : (ℓ : Loc nD τ sig) → Buf (Elt Ideal) ℓ)

/-- This point's slab of products, through the two input blocks. -/
theorem slab_eq (c : Dev nD) (t : Fin cfg0.N) (p q : Fin 1024) :
    (∑ r : Fin 1024, xblk m c t (ix3 (0 : Fin 1) p r) * wblk m c t (ix3 (0 : Fin 1) q r))
      = ∑ r : Fin 1024, term (xarr m c) (warr m c) (t.val / 4) p q (dpos (slabOf t) r) :=
  Finset.sum_congr rfl fun r _ => by rw [xblk_apply, wblk_apply]; rfl

/-- After every point the scratch is the partial sum over the slabs done so far. -/
theorem scr_eq (c : Dev nD) : ∀ (n : ℕ) (h : n < cfg0.N), scr m c n h = accAfter (xarr m c) (warr m c) n
  | 0, h => by
    funext y
    obtain ⟨p, q, rfl⟩ : ∃ (p q : Fin 1024), y = ix2 p q := ⟨y 0, y 1, eq_ix2 y⟩
    rw [scr_first m c ⟨0, h⟩ rfl, Body.accum_apply, Body.reset_apply, slab_eq,
      accAfter_first _ _ 0 (slabOf ⟨0, h⟩) rfl rfl]
  | n + 1, h => by
    funext y
    obtain ⟨p, q, rfl⟩ : ∃ (p q : Fin 1024), y = ix2 p q := ⟨y 0, y 1, eq_ix2 y⟩
    by_cases h0 : (n + 1) % 4 = 0
    · rw [scr_first m c ⟨n + 1, h⟩ h0, Body.accum_apply, Body.reset_apply, slab_eq,
        accAfter_first _ _ (n + 1) (slabOf ⟨n + 1, h⟩) rfl h0]
    · rw [scr_next m c ⟨n + 1, h⟩ h0, Body.accum_apply, slab_eq,
        accAfter_next _ _ (n + 1) (slabOf ⟨n + 1, h⟩) rfl h0]
      show scr m c n _ (ix2 p q) + _ = accAfter _ _ n (ix2 p q) + _
      rw [scr_eq c n]

/-- At a tile's last slab the output block holds the grouped product's entries the tile covers. -/
theorem out_last_apply (c : Dev nD) (t : Fin cfg0.N) (h1 : t.val % 4 = 3) (p q : Fin 1024) :
    ((outsAt0 m c t.val t.isLt).1 : Vec Ideal S1x1024x1024 .f32) (ix3 (0 : Fin 1) p q)
      = gemm (xarr m c) (warr m c) (ix3 (expertOf (t.val / 4)) (tokenOf (t.val / 4) p) (featOf (t.val / 4) q)) := by
  rw [out_last m c t h1, Body.writeout_apply, scr_eq m c t.val t.isLt, accAfter_last _ _ t.val h1]

end AtIdeal

end Cert.KernelIdeal.Scratch

end
-- ==== Proof.Final.lean ====
/-
  From the tiles to the result.  Each tile's last grid point writes back the output block, which holds the grouped
  product's entries under that block; the 64 blocks written back cover the [8, 2048, 4096] array, so the array ends
  holding the grouped product of the activation array as the region finds it — the argument reshaped — and the weight
  argument.  The reshape after the region then gives the program's result, and the arguments are unchanged.
-/
import proofs.«164082_j36507222016814_1_alg».proof.Proof.Scratch
import Idealize.ShloMosaic.Lib.StableHlo.Run

noncomputable section

namespace Cert.KernelIdeal.Final

open Cert.KernelIdeal Cert.KernelIdeal.Gen Idealize.ShloMosaic Idealize.ShloMosaic.TcCoe Idealize.SL.Sem
open Idealize.ShloMosaic.Pipeline (Dat)
open Idealize.ShloMosaic.ValueIdx Cert.Spec Cert.SlabSum Cert.KernelIdeal.Blocks Cert.KernelIdeal.Scratch

variable (m : (ℓ : Loc nD τ sig) → Buf (Elt Ideal) ℓ) (ρ : Dev nD → PrngReg)

/-- The grouped product of the arrays the region finds, as contents of the region's result array. -/
abbrev tiled (c : Dev nD) : Buf (Elt Ideal) ((c : Thread nD τ).loc main_v1) := gemm (xarr m c) (warr m c)

/-- What a tile's last point writes back is the block of the grouped product under it. -/
theorem flushed_eq (c : Dev nD) (t : Fin cfg0.N) (hf : (cfg0.win 2).flush t = true) :
    (dats m 0 c).flushed 2 t = ((cfg0.win 2).blk t).view.read (Elt Ideal) (tiled m c) := by
  have h3 : t.val % 4 = 3 := (flush0_2 t).mp hf
  obtain ⟨-, -, -, -, -, -, e0, e1, e2⟩ := idx_facts t
  have hN : t.val < 256 := lt_of_lt_of_eq t.isLt (show cfg0.N = 256 from N_0)
  show (cfg0.win 2).cut (grid0.coords t) ((dats m 0 c).after 2 t) = _
  rw [after0_2]
  funext y
  rw [View.read_apply]
  revert y
  show ∀ y : S1x1024x1024.Idx, ((outsAt0 m c t.val t.isLt).1 : Vec Ideal S1x1024x1024 .f32) y
    = gemm (xarr m c) (warr m c) (((cfg0.win 2).blk t).view.emb y)
  intro y
  obtain ⟨p, q, hy⟩ : ∃ (p q : Fin 1024), y = ix3 (0 : Fin 1) p q :=
    ⟨y 1, y 2, funext fun a => by
      match a with
      | ⟨0, _⟩ => exact Subsingleton.elim (α := Fin 1) _ _
      | ⟨1, _⟩ => rfl
      | ⟨2, _⟩ => rfl⟩
  subst hy
  rw [out_last_apply m c t h3]
  show gemm (xarr m c) (warr m c) _ = gemm (xarr m c) (warr m c) _
  congr 1
  funext a
  apply Fin.ext
  match a with
  | ⟨0, _⟩ => show t.val / 4 / 8 % 8 = win0_2.index t (0 : Fin 3) * 1 + 1 * 0; rw [e0]; omega
  | ⟨1, _⟩ => show 1024 * (t.val / 4 / 4 % 2) + p.val = win0_2.index t (1 : Fin 3) * 1024 + 1 * p.val; rw [e1]; omega
  | ⟨2, _⟩ => show 1024 * (t.val / 4 % 4) + q.val = win0_2.index t (2 : Fin 3) * 1024 + 1 * q.val; rw [e2]; omega

/-- An entry of the array is under point `t`'s output block iff each coordinate is in the block's range. -/
theorem mem_blk (t : Fin cfg0.N) (i : SX.Idx) :
    i ∈ ((cfg0.win 2).blk t).view.set ↔ ∀ a : Fin 3, win0_2.index t a * S1x1024x1024.size a ≤ (i a).val ∧ (i a).val < win0_2.index t a * S1x1024x1024.size a + S1x1024x1024.size a := by
  show i ∈ ((View.whole main_v1).slice (win0_2.rect t)).set ↔ _
  rw [View.set_slice_whole, Rect.mem_set_unit]
  exact Iff.rfl

/-- Every entry is under the block some tile's last point writes back. -/
theorem cover (i : SX.Idx) : ∃ t : Fin cfg0.N, (cfg0.win 2).flush t = true ∧ i ∈ ((cfg0.win 2).blk t).view.set := by
  have h0 : (i 0).val < 8 := (i 0).isLt
  have h1 : (i 1).val < 2048 := (i 1).isLt
  have h2 : (i 2).val < 4096 := (i 2).isLt
  have hN : cfg0.N = 256 := N_0
  obtain ⟨tv, htv⟩ : ∃ tv, tv = (((i 0).val * 2 + (i 1).val / 1024) * 4 + (i 2).val / 1024) * 4 + 3 := ⟨_, rfl⟩
  have hlt : tv < cfg0.N := by rw [hN]; omega
  refine ⟨⟨tv, hlt⟩, (flush0_2 _).mpr (by show tv % 4 = 3; omega), ?_⟩
  rw [mem_blk]
  obtain ⟨-, -, -, -, -, -, e0, e1, e2⟩ := idx_facts ⟨tv, hlt⟩
  intro a
  match a with
  | ⟨0, _⟩ =>
    show win0_2.index ⟨tv, hlt⟩ (0 : Fin 3) * 1 ≤ (i 0).val ∧ (i 0).val < win0_2.index ⟨tv, hlt⟩ (0 : Fin 3) * 1 + 1
    rw [e0]; show tv / 32 * 1 ≤ _ ∧ _ < tv / 32 * 1 + 1; omega
  | ⟨1, _⟩ =>
    show win0_2.index ⟨tv, hlt⟩ (1 : Fin 3) * 1024 ≤ (i 1).val ∧ (i 1).val < win0_2.index ⟨tv, hlt⟩ (1 : Fin 3) * 1024 + 1024
    rw [e1]; show tv / 16 % 2 * 1024 ≤ _ ∧ _ < tv / 16 % 2 * 1024 + 1024; omega
  | ⟨2, _⟩ =>
    show win0_2.index ⟨tv, hlt⟩ (2 : Fin 3) * 1024 ≤ (i 2).val ∧ (i 2).val < win0_2.index ⟨tv, hlt⟩ (2 : Fin 3) * 1024 + 1024
    rw [e2]; show tv / 4 % 4 * 1024 ≤ _ ∧ _ < tv / 4 % 4 * 1024 + 1024; omega

/-- So the region's result array ends holding the grouped product. -/
theorem final (c : Dev nD) : (dats m 0 c).arrAt 2 cfg0.N = tiled m c :=
  (dats m 0 c).arrAt_eq_of_cover 2 (tiled m c) (flushed_eq m c) cover

/-- The activation array the region finds is the first argument reshaped. -/
theorem xarr_eq (c : Dev nD) :
    xarr m c = shapeCast S8x2048x4096 (m ((c : Thread nD τ).loc main_arg0)) shapeCasts_S16384x4096_S8x2048x4096 := by
  show StableHlo.after hostOps0 (fun b => m (c, b)) (Proc.devRef .tc main_v0) = _
  after_results
  rfl

/-- The weight array the region finds is the second argument. -/
theorem warr_eq (c : Dev nD) : warr m c = m ((c : Thread nD τ).loc main_arg1) := V_main_arg1 m c

/-- The program's result as a function of its arguments. -/
abbrev result (c : Dev nD) : Buf (Elt Ideal) ((c : Thread nD τ).loc main_v2) :=
  shapeCast S16384x4096
    (gemm (shapeCast S8x2048x4096 (m ((c : Thread nD τ).loc main_arg0)) shapeCasts_S16384x4096_S8x2048x4096)
      (m ((c : Thread nD τ).loc main_arg1)))
    shapeCasts_S8x2048x4096_S16384x4096

/-- The reshape after the region, applied to what the region left. -/
theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v1) = tiled m c :=
    (Pipeline.withArrays_arr spec0 launch0.win.arr_inj c _ _ 2).trans (final m c)
  rw [e, show tiled m c = gemm _ _ from congrArg₂ gemm (xarr_eq m c) (warr_eq m c)]
  rfl

/-- The run, read: the result at the grouped product between the two reshapes, the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c)⟩)
    (run_main m ρ)

end Cert.KernelIdeal.Final

end
-- ==== Proof.Reference.lean ====
/-
  The reference.  Its one `dot_general` batches over the expert axis and contracts the last axis of both operands, so
  at an entry (e, t, f) it is the sum over d of (activation at (e, t, d)) times (weight at (e, f, d)): the grouped
  product of the reshaped first argument and the second argument.  The reshapes before and after it are the same two
  reshapes the kernel's program has around its region.
-/
import proofs.«164082_j36507222016814_1_alg».proof.Proof.Gen.ReferenceIdeal.Read
import proofs.«164082_j36507222016814_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Spec

theorem lidx_eq (i : S8x2048x4096.Idx) (k : Fin 4096) : lidx_main_v1 i k = ix3 (i 0) (i 1) k :=
  funext fun a => by match a with | ⟨0, _⟩ => rfl | ⟨1, _⟩ => rfl | ⟨2, _⟩ => rfl

theorem ridx_eq (i : S8x2048x4096.Idx) (k : Fin 4096) : ridx_main_v1 i k = ix3 (i 0) (i 2) k :=
  funext fun a => by match a with | ⟨0, _⟩ => rfl | ⟨1, _⟩ => rfl | ⟨2, _⟩ => rfl

/-- The reference's result is the grouped product between its two reshapes. -/
theorem result_eq (x0 : FVec Ideal S16384x4096 .f32) (x1 : FVec Ideal S8x4096x4096 .f32) :
    shapeCast S16384x4096 (Host.dotGeneral (F := Ideal) dot_S8x2048x4096_S8x4096x4096_S8x2048x4096_2_2_1_1_0_0 none (shapeCast S8x2048x4096 x0 shapeCasts_S16384x4096_S8x2048x4096) x1) shapeCasts_S8x2048x4096_S16384x4096
      = shapeCast S16384x4096 (gemm (shapeCast S8x2048x4096 x0 shapeCasts_S16384x4096_S8x2048x4096) x1) shapeCasts_S8x2048x4096_S16384x4096 := by
  refine congrArg (fun z => shapeCast S16384x4096 z shapeCasts_S8x2048x4096_S16384x4096) (funext fun i => ?_)
  have h : Host.dotGeneral (F := Ideal) dot_S8x2048x4096_S8x4096x4096_S8x2048x4096_2_2_1_1_0_0 none (shapeCast S8x2048x4096 x0 shapeCasts_S16384x4096_S8x2048x4096) x1 i
      = ∑ k : Fin 4096, (shapeCast S8x2048x4096 x0 shapeCasts_S16384x4096_S8x2048x4096) (lidx_main_v1 i k) * x1 (ridx_main_v1 i k) :=
    val_main_v1_apply x0 x1 i
  rw [h]
  unfold gemm
  exact Finset.sum_congr rfl fun k _ => by rw [lidx_eq, ridx_eq]; try rfl

end Cert.ReferenceIdeal.RefValue

end
-- ==== Proof.lean ====
/-
  A grouped linear layer: eight experts, each multiplying its 2048 tokens' activations [2048, 4096] by the transpose of
  its weight [4096, 4096].  The kernel reshapes the activations to [8, 2048, 4096] and computes the product tile by
  tile — a 1024 × 1024 output tile per (expert, token block, feature block), accumulated over four slabs of 1024
  positions of the contracted axis in a scratch tile that is zeroed at the first slab and written out at the last — and
  reshapes back; the reference does the same two reshapes around one batched `dot_general`.

  Over the extended reals both are, entry by entry, ∑ d, x (e, t, d) · w (e, f, d): the change of float format before
  the matrix unit is the identity, the matrix unit and `dot_general` are the same sum of products, and a sum over 4096
  positions is the sum of its four slab sums taken in order from zero (addition on the extended reals is commutative
  and associative with unit zero; nothing else is used, so the finiteness of the inputs is never opened).  The token
  counts argument is read by neither program.

  The modules: `SlabSum` (a sum over the axis as its slabs' partial sums), `Spec` (the grouped product and the
  accumulator's partial sums), `Body` (the stored values at an entry), `Pieces` (what each control case leaves),
  `Blocks` (where the blocks sit in the arrays), `Scratch` (the accumulator after every grid point, by induction),
  `Final` (the tiles cover the array; the program's run), `Reference` (the reference's `dot_general` is the grouped
  product).  The three frames are the programs' runs with the results dropped; no rewrite separates the kernel from
  its idealization.
-/
import proofs.«164082_j36507222016814_1_alg».proof.Defs
import proofs.«164082_j36507222016814_1_alg».proof.Proof.Gen.Kernel
import proofs.«164082_j36507222016814_1_alg».proof.Proof.Gen.Kernel.Skeleton
import proofs.«164082_j36507222016814_1_alg».proof.Proof.Gen.Kernel.Launch
import proofs.«164082_j36507222016814_1_alg».proof.Proof.Gen.Kernel.Points
import proofs.«164082_j36507222016814_1_alg».proof.Proof.Gen.Kernel.Frame
import proofs.«164082_j36507222016814_1_alg».proof.Proof.Gen.KernelIdeal
import proofs.«164082_j36507222016814_1_alg».proof.Proof.Gen.KernelIdeal.Skeleton
import proofs.«164082_j36507222016814_1_alg».proof.Proof.Gen.KernelIdeal.Launch
import proofs.«164082_j36507222016814_1_alg».proof.Proof.Gen.KernelIdeal.Points
import proofs.«164082_j36507222016814_1_alg».proof.Proof.Gen.KernelIdeal.Frame
import proofs.«164082_j36507222016814_1_alg».proof.Proof.Gen.ReferenceIdeal
import proofs.«164082_j36507222016814_1_alg».proof.Proof.Gen.ReferenceIdeal.Run
import proofs.«164082_j36507222016814_1_alg».proof.Proof.Gen.ReferenceIdeal.Read
import proofs.«164082_j36507222016814_1_alg».proof.Proof.Gen.Pre_finite_inputs
import proofs.«164082_j36507222016814_1_alg».proof.Proof.Final
import proofs.«164082_j36507222016814_1_alg».proof.Proof.Reference
import Idealize.ShloMosaic.Adequacy
import Idealize.ShloMosaic.Init

noncomputable section

namespace Cert.Proof

open Idealize.ShloMosaic Idealize.SL.Sem

/-- The kernel's program runs and keeps its arguments, at the word level. -/
theorem frame_k : Cert.frame_Kernel := fun m ρ _ => Cert.Kernel.Gen.frame m ρ

/-- The same of its idealization. -/
theorem frame_ki : Cert.frame_KernelIdeal := fun m ρ _ => Cert.KernelIdeal.Gen.frame m ρ

/-- The reference's run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the grouped product of the reshaped first argument and the second argument, reshaped back:
    the kernel's tiles add up to it, the reference's `dot_general` is it; the arguments agree. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1]
  exact Cert.ReferenceIdeal.RefValue.result_eq _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
